-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x3 : Shape := ⟨2, ![4194304, 3]⟩
abbrev S_ : Shape := ⟨0, ![]⟩

class Facts : Prop where
  bcast_S_S4194304x3 : S_.BroadcastsInDim S4194304x3 (![] : Fin 0 → Fin S4194304x3.rank)
  reducesTo_S4194304x3_S_d0_1 : S4194304x3.ReducesTo [0, 1] S_
  h_S_ : 0 < S_.numel

variable [Facts]

def fn {F : FTy → Type} [FloatOps F] (main_arg0 : FVec F S4194304x3 .f32) : IVec S_ 1 :=
  let main_v0 : FVec F S4194304x3 .f32 := Host.absf main_arg0
  let main_cst : FVec F S_ .f32 := constant S_ .f32 0x7F800000#32
  let main_v1 : FVec F S4194304x3 .f32 := broadcastInDim S4194304x3 ![] bcast_S_S4194304x3 main_cst
  let main_v2 : IVec S4194304x3 1 := cmpf .olt main_v0 main_v1
  let main_c : IVec S_ 1 := constantI S_ 1 1#1
  let main_v3 : IVec S_ 1 := (fun x v => Host.reduce IntOp.andi x v reducesTo_S4194304x3_S_d0_1 h_S_) main_v2 main_c
  main_v3
-- ==== Kernel.lean ====
abbrev S4194304x3 : Shape := ⟨2, ![4194304, 3]⟩
abbrev S4194304x16 : Shape := ⟨2, ![4194304, 16]⟩
abbrev S4096x3 : Shape := ⟨2, ![4096, 3]⟩
abbrev S4096x16 : Shape := ⟨2, ![4096, 16]⟩
abbrev S4096x1 : Shape := ⟨2, ![4096, 1]⟩
abbrev S4194304x4x4 : Shape := ⟨3, ![4194304, 4, 4]⟩

abbrev nBuf : Space → Nat
  | .hbm => 3
  | .vmem => 4
  | .smem => 0
  | _ => 0

abbrev bufTy : (tb : Table) → Fin (tcTables nBuf tb) → BufTy
  | .hbm, ⟨0, _⟩ => ⟨S4194304x3, .f32⟩
  | .hbm, ⟨1, _⟩ => ⟨S4194304x16, .f32⟩
  | .hbm, ⟨2, _⟩ => ⟨S4194304x4x4, .f32⟩
  | .local _ .vmem, ⟨0, _⟩ => ⟨S4096x3, .f32⟩
  | .local _ .vmem, ⟨1, _⟩ => ⟨S4096x3, .f32⟩
  | .local _ .vmem, ⟨2, _⟩ => ⟨S4096x16, .f32⟩
  | .local _ .vmem, ⟨3, _⟩ => ⟨S4096x16, .f32⟩
  | _, _ => ⟨S4194304x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S4096x3_S4096x3_0_0 : ∀ a, (![0, 0] : Fin 2 → Nat) a + S4096x3.size a ≤ S4096x3.size a
  h_S4096x3 : 0 < S4096x3.numel
  slices_S4096x3_o0_0_S4096x1 : S4096x3.Slices ![0, 0] S4096x1
  slices_S4096x3_o0_1_S4096x1 : S4096x3.Slices ![0, 1] S4096x1
  slices_S4096x3_o0_2_S4096x1 : S4096x3.Slices ![0, 2] S4096x1
  concatenates_S4096x1_S4096x1_S4096x1_S4096x1_S4096x1_S4096x1_S4096x1_S4096x1_S4096x1_S4096x1_S4096x1_S4096x1_S4096x1_S4096x1_S4096x1_S4096x1_S4096x16_d1 : Shape.Concatenates [S4096x1, S4096x1, S4096x1, S4096x1, S4096x1, S4096x1, S4096x1, S4096x1, S4096x1, S4096x1, S4096x1, S4096x1, S4096x1, S4096x1, S4096x1, S4096x1] S4096x16 1
  inb_S4096x16_S4096x16_0_0 : ∀ a, (![0, 0] : Fin 2 → Nat) a + S4096x16.size a ≤ S4096x16.size a
  h_S4096x16 : 0 < S4096x16.numel
  shapeCasts_S4194304x16_S4194304x4x4 : S4194304x16.ShapeCasts S4194304x4x4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x3.size a ≤ S4194304x3.size a
  hwx0_0 : ∀ i : grid0.Coords, EltTy.bits .f32 = 32 ∨ (Rect.block (s := S4194304x3) S4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x16.size a ≤ S4194304x16.size a
  hwx0_1 : ∀ i : grid0.Coords, EltTy.bits .f32 = 32 ∨ (Rect.block (s := S4194304x16) S4096x16.size (cc0_transform_1 i) (hinb0_1 i)).WholeWords (EltTy.packing .f32)

variable [Facts₀]

abbrev win0_0 : Pipeline.Window sig grid0 :=
  Pipeline.Window.ofSpec (Memref.whole main_arg0) S4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x16.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4194304x3 : Shape := ⟨2, ![4194304, 3]⟩
abbrev S4194304x1 : Shape := ⟨2, ![4194304, 1]⟩
abbrev S4194304 : Shape := ⟨1, ![4194304]⟩
abbrev S_ : Shape := ⟨0, ![]⟩
abbrev S4194304x4 : Shape := ⟨2, ![4194304, 4]⟩
abbrev S4194304x1x4 : Shape := ⟨3, ![4194304, 1, 4]⟩
abbrev S4194304x4x4 : Shape := ⟨3, ![4194304, 4, 4]⟩

abbrev nBuf : Space → Nat
  | .hbm => 87
  | .vmem => 0
  | .smem => 0
  | _ => 0

abbrev bufTy : (tb : Table) → Fin (tcTables nBuf tb) → BufTy
  | .hbm, ⟨0, _⟩ => ⟨S4194304x3, .f32⟩
  | .hbm, ⟨1, _⟩ => ⟨S4194304x1, .f32⟩
  | .hbm, ⟨2, _⟩ => ⟨S4194304, .f32⟩
  | .hbm, ⟨3, _⟩ => ⟨S_, .f32⟩
  | .hbm, ⟨4, _⟩ => ⟨S4194304, .f32⟩
  | .hbm, ⟨5, _⟩ => ⟨S4194304, .f32⟩
  | .hbm, ⟨6, _⟩ => ⟨S4194304x1, .f32⟩
  | .hbm, ⟨7, _⟩ => ⟨S4194304, .f32⟩
  | .hbm, ⟨8, _⟩ => ⟨S_, .f32⟩
  | .hbm, ⟨9, _⟩ => ⟨S4194304, .f32⟩
  | .hbm, ⟨10, _⟩ => ⟨S4194304, .f32⟩
  | .hbm, ⟨11, _⟩ => ⟨S4194304x1, .f32⟩
  | .hbm, ⟨12, _⟩ => ⟨S4194304, .f32⟩
  | .hbm, ⟨13, _⟩ => ⟨S_, .f32⟩
  | .hbm, ⟨14, _⟩ => ⟨S4194304, .f32⟩
  | .hbm, ⟨15, _⟩ => ⟨S4194304, .f32⟩
  | .hbm, ⟨16, _⟩ => ⟨S4194304, .f32⟩
  | .hbm, ⟨17, _⟩ => ⟨S4194304, .f32⟩
  | .hbm, ⟨18, _⟩ => ⟨S4194304, .f32⟩
  | .hbm, ⟨19, _⟩ => ⟨S_, .f32⟩
  | .hbm, ⟨20, _⟩ => ⟨S4194304, .f32⟩
  | .hbm, ⟨21, _⟩ => ⟨S4194304, .f32⟩
  | .hbm, ⟨22, _⟩ => ⟨S4194304, .f32⟩
  | .hbm, ⟨23, _⟩ => ⟨S4194304, .f32⟩
  | .hbm, ⟨24, _⟩ => ⟨S_, .f32⟩
  | .hbm, ⟨25, _⟩ => ⟨S4194304, .f32⟩
  | .hbm, ⟨26, _⟩ => ⟨S4194304, .f32⟩
  | .hbm, ⟨27, _⟩ => ⟨S_, .f32⟩
  | .hbm, ⟨28, _⟩ => ⟨S4194304, .f32⟩
  | .hbm, ⟨29, _⟩ => ⟨S4194304, .f32⟩
  | .hbm, ⟨30, _⟩ => ⟨S4194304, .f32⟩
  | .hbm, ⟨31, _⟩ => ⟨S_, .f32⟩
  | .hbm, ⟨32, _⟩ => ⟨S4194304, .f32⟩
  | .hbm, ⟨33, _⟩ => ⟨S4194304, .f32⟩
  | .hbm, ⟨34, _⟩ => ⟨S_, .f32⟩
  | .hbm, ⟨35, _⟩ => ⟨S4194304, .f32⟩
  | .hbm, ⟨36, _⟩ => ⟨S4194304, .f32⟩
  | .hbm, ⟨37, _⟩ => ⟨S4194304, .f32⟩
  | .hbm, ⟨38, _⟩ => ⟨S4194304, .f32⟩
  | .hbm, ⟨39, _⟩ => ⟨S_, .f32⟩
  | .hbm, ⟨40, _⟩ => ⟨S4194304, .f32⟩
  | .hbm, ⟨41, _⟩ => ⟨S4194304, .f32⟩
  | .hbm, ⟨42, _⟩ => ⟨S4194304, .f32⟩
  | .hbm, ⟨43, _⟩ => ⟨S4194304, .f32⟩
  | .hbm, ⟨44, _⟩ => ⟨S4194304, .f32⟩
  | .hbm, ⟨45, _⟩ => ⟨S4194304, .f32⟩
  | .hbm, ⟨46, _⟩ => ⟨S_, .f32⟩
  | .hbm, ⟨47, _⟩ => ⟨S4194304, .f32⟩
  | .hbm, ⟨48, _⟩ => ⟨S4194304, .f32⟩
  | .hbm, ⟨49, _⟩ => ⟨S4194304, .f32⟩
  | .hbm, ⟨50, _⟩ => ⟨S4194304, .f32⟩
  | .hbm, ⟨51, _⟩ => ⟨S4194304, .f32⟩
  | .hbm, ⟨52, _⟩ => ⟨S4194304, .f32⟩
  | .hbm, ⟨53, _⟩ => ⟨S4194304, .f32⟩
  | .hbm, ⟨54, _⟩ => ⟨S4194304, .f32⟩
  | .hbm, ⟨55, _⟩ => ⟨S4194304, .f32⟩
  | .hbm, ⟨56, _⟩ => ⟨S4194304, .f32⟩
  | .hbm, ⟨57, _⟩ => ⟨S4194304, .f32⟩
  | .hbm, ⟨58, _⟩ => ⟨S_, .f32⟩
  | .hbm, ⟨59, _⟩ => ⟨S4194304, .f32⟩
  | .hbm, ⟨60, _⟩ => ⟨S_, .f32⟩
  | .hbm, ⟨61, _⟩ => ⟨S4194304, .f32⟩
  | .hbm, ⟨62, _⟩ => ⟨S4194304x1, .f32⟩
  | .hbm, ⟨63, _⟩ => ⟨S4194304x1, .f32⟩
  | .hbm, ⟨64, _⟩ => ⟨S4194304x1, .f32⟩
  | .hbm, ⟨65, _⟩ => ⟨S4194304x1, .f32⟩
  | .hbm, ⟨66, _⟩ => ⟨S4194304x4, .f32⟩
  | .hbm, ⟨67, _⟩ => ⟨S4194304x1, .f32⟩
  | .hbm, ⟨68, _⟩ => ⟨S4194304x1, .f32⟩
  | .hbm, ⟨69, _⟩ => ⟨S4194304x1, .f32⟩
  | .hbm, ⟨70, _⟩ => ⟨S4194304x1, .f32⟩
  | .hbm, ⟨71, _⟩ => ⟨S4194304x4, .f32⟩
  | .hbm, ⟨72, _⟩ => ⟨S4194304x1, .f32⟩
  | .hbm, ⟨73, _⟩ => ⟨S4194304x1, .f32⟩
  | .hbm, ⟨74, _⟩ => ⟨S4194304x1, .f32⟩
  | .hbm, ⟨75, _⟩ => ⟨S4194304x1, .f32⟩
  | .hbm, ⟨76, _⟩ => ⟨S4194304x4, .f32⟩
  | .hbm, ⟨77, _⟩ => ⟨S4194304x1, .f32⟩
  | .hbm, ⟨78, _⟩ => ⟨S4194304x1, .f32⟩
  | .hbm, ⟨79, _⟩ => ⟨S4194304x1, .f32⟩
  | .hbm, ⟨80, _⟩ => ⟨S4194304x1, .f32⟩
  | .hbm, ⟨81, _⟩ => ⟨S4194304x4, .f32⟩
  | .hbm, ⟨82, _⟩ => ⟨S4194304x1x4, .f32⟩
  | .hbm, ⟨83, _⟩ => ⟨S4194304x1x4, .f32⟩
  | .hbm, ⟨84, _⟩ => ⟨S4194304x1x4, .f32⟩
  | .hbm, ⟨85, _⟩ => ⟨S4194304x1x4, .f32⟩
  | .hbm, ⟨86, _⟩ => ⟨S4194304x4x4, .f32⟩
  | _, _ => ⟨S4194304x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_3 : Ref sig .tc := ⟨.hbm, 24, rfl⟩
abbrev main_v19 : Ref sig .tc := ⟨.hbm, 25, rfl⟩
abbrev main_v20 : Ref sig .tc := ⟨.hbm, 26, rfl⟩
abbrev main_cst_4 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_5 : Ref sig .tc := ⟨.hbm, 31, rfl⟩
abbrev main_v24 : Ref sig .tc := ⟨.hbm, 32, rfl⟩
abbrev main_v25 : Ref sig .tc := ⟨.hbm, 33, rfl⟩
abbrev main_cst_6 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_7 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_8 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_9 : Ref sig .tc := ⟨.hbm, 58, rfl⟩
abbrev main_v47 : Ref sig .tc := ⟨.hbm, 59, rfl⟩
abbrev main_cst_10 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩

abbrev nD : Nat := 1
abbrev τ : Topo := Topo.v7x

variable {F : FTy → Type} [FloatOps F]

class Facts₀ : Prop where
  slices_S4194304x3_S4194304x1_0_2 : S4194304x3.Slices ![0, 2] S4194304x1
  shapeCasts_S4194304x1_S4194304 : S4194304x1.ShapeCasts S4194304
  bcast_S_S4194304 : S_.BroadcastsInDim S4194304 (![] : Fin 0 → Fin S4194304.rank)
  slices_S4194304x3_S4194304x1_0_0 : S4194304x3.Slices ![0, 0] S4194304x1
  slices_S4194304x3_S4194304x1_0_1 : S4194304x3.Slices ![0, 1] S4194304x1
  bcast_S4194304_S4194304x1_0 : S4194304.BroadcastsInDim S4194304x1 (![0] : Fin 1 → Fin S4194304x1.rank)
  concatenates_S4194304x1_S4194304x1_S4194304x1_S4194304x1_S4194304x4_d1 : Shape.Concatenates [S4194304x1, S4194304x1, S4194304x1, S4194304x1] S4194304x4 1
  bcast_S4194304x4_S4194304x1x4_0_2 : S4194304x4.BroadcastsInDim S4194304x1x4 (![0, 2] : Fin 2 → Fin S4194304x1x4.rank)
  concatenates_S4194304x1x4_S4194304x1x4_S4194304x1x4_S4194304x1x4_S4194304x4x4_d1 : Shape.Concatenates [S4194304x1x4, S4194304x1x4, S4194304x1x4, S4194304x1x4] S4194304x4x4 1

variable [Facts₀]

class Facts : Prop extends Facts₀ where

variable [Facts]
-- ==== Proof.PlanarExp.lean ====
/-
  The planar rigid-motion exponential, one row at a time, on the extended reals.

  A row of the input is `(x, y, z)`: a translation `(x, y)` and a yaw `z`. With `w = z · s` (`s` the rotation scale),
  `θ² = w · w`, `θ = √θ²`, and the three coefficients
      A = sin θ / (θ + ε),   B = (1 − cos θ) / (θ² + ε),   C = (1 − A) / (θ² + ε),
  the result row is the 4 × 4 matrix
      ⎡ 1 − θ²·B     (−w)·A     0   (1 − θ²·C)·x + ((−w)·B)·y ⎤
      ⎢   w·A      1 − θ²·B     0     (w·B)·x + (1 − θ²·C)·y  ⎥
      ⎢    0           0        1               0             ⎥
      ⎣    0           0        0               1             ⎦
  (`x` and `y` each first multiplied by the translation scale, the float `1`). The scale `s`, `ε` and `1` are the
  same three float words in both programs, so they are kept as words and never evaluated; only the zero word is read (as `0`).

  One program writes the row as sixteen columns and spells a negation as `0 − ·`, taking `w·A` as `0 − ((0 − w)·A)` and
  `w·B` as `0 − ((0 − w)·B)`; the other writes `−w` and the products `w·A`, `w·B` directly. On the extended reals
  `0 − a = −a`, `(−a)·b = −(a·b)` and `−−a = a` hold with no finiteness needed, so the two spellings are one function
  (`flat_eq`), and column `4i + j` of the sixteen is entry `(i, j)` of the matrix (`flat_entry`).
-/
import Idealize.ShloMosaic.PureOps.Ideal
import Idealize.ShloMosaic.PureOps.Ideal.Laws
import Idealize.ShloMosaic.Lib.ValueIdx

noncomputable section

namespace Cert.PlanarExp

open Idealize.ShloMosaic Idealize.ShloMosaic.ValueIdx

/-- The rotation scale, the guard `ε` and the float one: the words both programs carry. -/
abbrev kScale : EReal := Ideal.ofBits .f32 0x3DCCCCCD#32
abbrev kEps : EReal := Ideal.ofBits .f32 0x3727C5AC#32
abbrev kOne : EReal := Ideal.ofBits .f32 0x3F800000#32

/-- The scaled yaw `w`, its square `θ²` and the angle `θ`. -/
def yaw (z : EReal) : EReal := z * kScale
def angSq (z : EReal) : EReal := yaw z * yaw z
def ang (z : EReal) : EReal := Ideal.sqrt (angSq z)

/-- `A = sin θ / (θ + ε)`, `B = (1 − cos θ) / (θ² + ε)`, `C = (1 − A) / (θ² + ε)`. -/
def coefA (z : EReal) : EReal := Ideal.div (Ideal.sin (ang z)) (ang z + kEps)
def coefB (z : EReal) : EReal := Ideal.div (kOne - Ideal.cos (ang z)) (angSq z + kEps)
def coefC (z : EReal) : EReal := Ideal.div (kOne - coefA z) (angSq z + kEps)

/-- The diagonal of the rotation block and of the translation's matrix. -/
def rotDiag (z : EReal) : EReal := kOne - angSq z * coefB z
def trDiag (z : EReal) : EReal := kOne - angSq z * coefC z

/-- The translation column. -/
def shiftX (x y z : EReal) : EReal := trDiag z * (x * kOne) + (-(yaw z) * coefB z) * (y * kOne)
def shiftY (x y z : EReal) : EReal := (yaw z * coefB z) * (x * kOne) + trDiag z * (y * kOne)

/-- The result matrix of a row `(x, y, z)`. -/
def entry (x y z : EReal) : Fin 4 → Fin 4 → EReal :=
  ![![rotDiag z, -(yaw z) * coefA z, 0, shiftX x y z],
    ![yaw z * coefA z, rotDiag z, 0, shiftY x y z],
    ![0, 0, kOne, 0],
    ![0, 0, 0, kOne]]

/-- The same sixteen numbers in one row, row-major. -/
def flat (x y z : EReal) : Fin 16 → EReal :=
  ![rotDiag z, -(yaw z) * coefA z, 0, shiftX x y z,
    yaw z * coefA z, rotDiag z, 0, shiftY x y z,
    0, 0, kOne, 0,
    0, 0, 0, kOne]

/-- The sixteen columns as the program that negates by `0 − ·` spells them. -/
def flatSub (x y z : EReal) : Fin 16 → EReal :=
  ![rotDiag z, (0 - yaw z) * coefA z, 0, trDiag z * (x * kOne) + ((0 - yaw z) * coefB z) * (y * kOne),
    0 - (0 - yaw z) * coefA z, rotDiag z, 0, (0 - (0 - yaw z) * coefB z) * (x * kOne) + trDiag z * (y * kOne),
    0, 0, kOne, 0,
    0, 0, 0, kOne]

/-- `0 − ((0 − a)·b) = a·b` on the extended reals. -/
theorem zero_sub_zero_sub_mul (a b : EReal) : 0 - (0 - a) * b = a * b := by
  rw [zero_sub, zero_sub, EReal.neg_mul, neg_neg]

/-- The two spellings of the row are one function. -/
theorem flat_eq (x y z : EReal) : flatSub x y z = flat x y z := by
  unfold flatSub flat shiftX shiftY
  rw [zero_sub_zero_sub_mul, zero_sub_zero_sub_mul, zero_sub]

/-- Column `4i + j` of the row is entry `(i, j)` of the matrix. -/
theorem flat_entry (x y z : EReal) (i j : Fin 4) (k : Fin 16) (hk : k.val = 4 * i.val + j.val) :
    flat x y z k = entry x y z i j := by
  obtain ⟨kv, hkv⟩ := k
  dsimp only at hk
  subst hk
  fin_cases i <;> fin_cases j <;> rfl

/-! ## The whole arrays -/

/-- The result over all 4194304 rows, sixteen columns wide: row `b` is the row of `(uv b 0, uv b 1, uv b 2)`. -/
def wide (uv : (⟨2, ![4194304, 3]⟩ : Shape).Idx → EReal) : (⟨2, ![4194304, 16]⟩ : Shape).Idx → EReal := fun p =>
  flat (uv (ix2 (⟨(p 0).val, (p 0).isLt⟩ : Fin 4194304) 0)) (uv (ix2 (⟨(p 0).val, (p 0).isLt⟩ : Fin 4194304) 1))
    (uv (ix2 (⟨(p 0).val, (p 0).isLt⟩ : Fin 4194304) 2)) (⟨(p 1).val, (p 1).isLt⟩ : Fin 16)

theorem wide_apply (uv : (⟨2, ![4194304, 3]⟩ : Shape).Idx → EReal) (b : Fin 4194304) (k : Fin 16) :
    wide uv (ix2 b k) = flat (uv (ix2 b 0)) (uv (ix2 b 1)) (uv (ix2 b 2)) k := rfl

/-- The result as 4194304 matrices: matrix `b` is the matrix of `(uv b 0, uv b 1, uv b 2)`. -/
def mats (uv : (⟨2, ![4194304, 3]⟩ : Shape).Idx → EReal) : (⟨3, ![4194304, 4, 4]⟩ : Shape).Idx → EReal := fun q =>
  entry (uv (ix2 (⟨(q 0).val, (q 0).isLt⟩ : Fin 4194304) 0)) (uv (ix2 (⟨(q 0).val, (q 0).isLt⟩ : Fin 4194304) 1))
    (uv (ix2 (⟨(q 0).val, (q 0).isLt⟩ : Fin 4194304) 2)) (⟨(q 1).val, (q 1).isLt⟩ : Fin 4) (⟨(q 2).val, (q 2).isLt⟩ : Fin 4)

theorem mats_apply (uv : (⟨2, ![4194304, 3]⟩ : Shape).Idx → EReal) (b : Fin 4194304) (i j : Fin 4) :
    mats uv (ix3 b i j) = entry (uv (ix2 b 0)) (uv (ix2 b 1)) (uv (ix2 b 2)) i j := rfl

end Cert.PlanarExp

end
-- ==== Proof.Columns.lean ====
/-
  Reading joined columns, stacked rows and a regrouped row at an index.

  A 4096 × 16 block made of sixteen 4096 × 1 columns side by side holds, at `(r, k)`, column `k` at row `r`; a
  4194304 × 4 array made of four columns likewise; a 4194304 × 4 × 4 array made of four 4194304 × 1 × 4 slabs stacked
  along the middle axis holds, at `(b, i, j)`, slab `i` at `(b, 0, j)`; and a 4194304 × 16 array regrouped as
  4194304 × 4 × 4 holds, at `(b, i, j)`, the entry `(b, 4i + j)`: the same row-major position. A one-column slice of a
  4096 × 3 block at `(r, 0)` is the block at `(r, c)`.
-/
import Idealize.ShloMosaic.Lib.Pipeline.Value
import Idealize.ShloMosaic.Lib.ValueIdx

noncomputable section

namespace Cert.Columns

open Idealize.ShloMosaic Idealize.ShloMosaic.ValueIdx

variable {α : Type}

abbrev Blk3 : Shape := ⟨2, ![4096, 3]⟩
abbrev Col : Shape := ⟨2, ![4096, 1]⟩
abbrev Blk16 : Shape := ⟨2, ![4096, 16]⟩
abbrev LongCol : Shape := ⟨2, ![4194304, 1]⟩
abbrev Long4 : Shape := ⟨2, ![4194304, 4]⟩
abbrev Long16 : Shape := ⟨2, ![4194304, 16]⟩
abbrev Long : Shape := ⟨1, ![4194304]⟩
abbrev Long3 : Shape := ⟨2, ![4194304, 3]⟩
abbrev Slab : Shape := ⟨3, ![4194304, 1, 4]⟩
abbrev Mats : Shape := ⟨3, ![4194304, 4, 4]⟩

/-- Column `o` of a 4096 × 3 block, read at row `r`. -/
theorem column_apply (x : Blk3.Idx → α) (o : Nat) (ho : o < 3) (h : Blk3.Slices ![0, o] Col) (r : Fin 4096) :
    extractStridedSlice Col ![0, o] x h (ix2 r 0) = x (ix2 r ⟨o, ho⟩) :=
  extractStridedSlice_apply _ x h (ix2 r 0) (ix2 r ⟨o, ho⟩) (fun a => match a with
    | ⟨0, _⟩ => by show r.val = 0 + r.val; omega
    | ⟨1, _⟩ => by show o = o + 0; omega)

/-- Sixteen columns side by side, read at `(r, k)`: column `k` at row `r`. -/
theorem join16_apply (f : Fin 16 → (Col.Idx → α))
    (h : Shape.Concatenates [Col, Col, Col, Col, Col, Col, Col, Col, Col, Col, Col, Col, Col, Col, Col, Col] Blk16 1)
    (r : Fin 4096) (k : Fin 16) :
    concatenate Blk16 1 [⟨Col, f 0⟩, ⟨Col, f 1⟩, ⟨Col, f 2⟩, ⟨Col, f 3⟩, ⟨Col, f 4⟩, ⟨Col, f 5⟩, ⟨Col, f 6⟩, ⟨Col, f 7⟩, ⟨Col, f 8⟩, ⟨Col, f 9⟩, ⟨Col, f 10⟩, ⟨Col, f 11⟩, ⟨Col, f 12⟩, ⟨Col, f 13⟩, ⟨Col, f 14⟩, ⟨Col, f 15⟩] h (ix2 r k) = f k (ix2 r 0) :=
  concatenate_ofFn_unit_apply (t := Blk16) (s₁ := Col) 1 f h rfl rfl (ix2 r k) k rfl (ix2 r 0)
    (fun b hb => match b, hb with
      | ⟨0, _⟩, _ => rfl
      | ⟨1, _⟩, hb => absurd rfl hb)

/-- Four long columns side by side, read at `(b, j)`: column `j` at row `b`. -/
theorem join4_apply (f : Fin 4 → (LongCol.Idx → α))
    (h : Shape.Concatenates [LongCol, LongCol, LongCol, LongCol] Long4 1)
    (b : Fin 4194304) (j : Fin 4) :
    concatenate Long4 1 [⟨LongCol, f 0⟩, ⟨LongCol, f 1⟩, ⟨LongCol, f 2⟩, ⟨LongCol, f 3⟩] h (ix2 b j) = f j (ix2 b 0) :=
  concatenate_ofFn_unit_apply (t := Long4) (s₁ := LongCol) 1 f h rfl rfl (ix2 b j) j rfl (ix2 b 0)
    (fun a ha => match a, ha with
      | ⟨0, _⟩, _ => rfl
      | ⟨1, _⟩, ha => absurd rfl ha)

/-- Four slabs stacked along the middle axis, read at `(b, i, j)`: slab `i` at `(b, 0, j)`. -/
theorem stack4_apply (f : Fin 4 → (Slab.Idx → α))
    (h : Shape.Concatenates [Slab, Slab, Slab, Slab] Mats 1)
    (b : Fin 4194304) (i j : Fin 4) :
    concatenate Mats 1 [⟨Slab, f 0⟩, ⟨Slab, f 1⟩, ⟨Slab, f 2⟩, ⟨Slab, f 3⟩] h (ix3 b i j) = f i (ix3 b 0 j) :=
  concatenate_ofFn_unit_apply (t := Mats) (s₁ := Slab) 1 f h rfl rfl (ix3 b i j) i rfl (ix3 b 0 j)
    (fun a ha => match a, ha with
      | ⟨0, _⟩, _ => rfl
      | ⟨1, _⟩, ha => absurd rfl ha
      | ⟨2, _⟩, _ => rfl)

/-- A 4194304 × 16 array regrouped as 4194304 × 4 × 4, read at `(b, i, j)`: the entry `(b, 4i + j)`. -/
theorem regroup_apply (x : Long16.Idx → α) (h : Long16.ShapeCasts Mats) (b : Fin 4194304) (i j : Fin 4)
    (k : Fin 16) (hk : k.val = 4 * i.val + j.val) :
    shapeCast Mats x h (ix3 b i j) = x (ix2 b k) :=
  shapeCast_apply x h (ix3 b i j) (ix2 b k) (by
    rw [Shape.rowMajor_val_two, Shape.rowMajor_val_three]
    show b.val * 16 + k.val = (b.val * 4 + i.val) * 4 + j.val
    omega)

/-- Column `o` of a 4194304 × 3 array taken as a 4194304 × 1 slice and flattened, read at `b`: the array at `(b, o)`. -/
theorem longColumn_apply (x : Long3.Idx → α) (o : Nat) (ho : o < 3) (hs : Long3.Slices ![0, o] LongCol)
    (hc : LongCol.ShapeCasts Long) (b : Fin 4194304) :
    shapeCast Long (extractStridedSlice LongCol ![0, o] x hs) hc (ix1 b) = x (ix2 b ⟨o, ho⟩) :=
  (shapeCast_apply _ hc (ix1 b) (ix2 b 0) (by
    rw [Shape.rowMajor_val_two, Shape.rowMajor_val_one]; show b.val * 1 + 0 = b.val; omega)).trans
  (extractStridedSlice_apply _ x hs (ix2 b 0) (ix2 b ⟨o, ho⟩) (fun a => match a with
    | ⟨0, _⟩ => by show b.val = 0 + b.val; omega
    | ⟨1, _⟩ => by show o = o + 0; omega))

/-- A long vector stood up as one column, read at `(b, 0)`: the vector at `b`. -/
theorem asColumn_apply (y : Long.Idx → α) (h : Long.BroadcastsInDim LongCol (![0] : Fin 1 → Fin 2)) (b : Fin 4194304) :
    broadcastInDim LongCol ![0] h y (ix2 b 0) = y (ix1 b) :=
  broadcastInDim_apply _ h y (ix2 b 0) (ix1 b) (fun a => match a with
    | ⟨0, _⟩ => by show b.val = if (4194304 : Nat) = 1 then 0 else b.val; rw [if_neg (by decide)])

/-- A 4194304 × 4 array given a unit middle axis, read at `(b, 0, j)`: the array at `(b, j)`. -/
theorem asSlab_apply (y : Long4.Idx → α) (h : Long4.BroadcastsInDim Slab (![0, 2] : Fin 2 → Fin 3)) (b : Fin 4194304)
    (j : Fin 4) : broadcastInDim Slab ![0, 2] h y (ix3 b 0 j) = y (ix2 b j) :=
  broadcastInDim_apply _ h y (ix3 b 0 j) (ix2 b j) (fun a => match a with
    | ⟨0, _⟩ => by show b.val = if (4194304 : Nat) = 1 then 0 else b.val; rw [if_neg (by decide)]
    | ⟨1, _⟩ => by show j.val = if (4 : Nat) = 1 then 0 else j.val; rw [if_neg (by decide)])

end Cert.Columns

end
-- ==== Proof.KernelRow.lean ====
/-
  What the kernel's body stores, read at one entry.

  The body loads a 4096 × 3 block, slices its three columns, computes on 4096 × 1 columns with pointwise operations only,
  and joins sixteen columns into the 4096 × 16 block it stores. So entry `(r, k)` of the stored block depends on row
  `r` of the loaded block alone: it is column `k` of the sixteen-column spelling of the planar exponential
  (`PlanarExp.flatSub`) at `x = row r's first entry`, `y` its second, `z` its third. Each intermediate column is read at
  `(r, 0)` in turn, in the order the body computes them; every step is the pointwise operation's definition, the three
  slices being the only reads that move an index.
-/
import proofs.«115441_j66649302499845_1_alg».proof.Proof.Gen.KernelIdeal.Skeleton
import proofs.«115441_j66649302499845_1_alg».proof.Proof.PlanarExp
import proofs.«115441_j66649302499845_1_alg».proof.Proof.Columns
import Idealize.ShloMosaic.Lib.ValueIdx
import Idealize.ShloMosaic.PureOps.Ideal.Laws

noncomputable section

namespace Cert.KernelIdeal.RowValue

open Idealize.ShloMosaic Idealize.ShloMosaic.ValueIdx Cert.KernelIdeal Cert.KernelIdeal.Gen Cert.PlanarExp

variable (x0 : Vec Ideal S4096x3 .f32) (r : Fin 4096)

/-- The three columns of the loaded block at row `r`. -/
theorem col0_at : extractStridedSlice S4096x1 ![0, 0] x0 slices_S4096x3_o0_0_S4096x1 (ix2 r 0) = x0 (ix2 r 0) :=
  Cert.Columns.column_apply x0 0 (by decide) slices_S4096x3_o0_0_S4096x1 r
theorem col1_at : extractStridedSlice S4096x1 ![0, 1] x0 slices_S4096x3_o0_1_S4096x1 (ix2 r 0) = x0 (ix2 r 1) :=
  Cert.Columns.column_apply x0 1 (by decide) slices_S4096x3_o0_1_S4096x1 r
theorem col2_at : extractStridedSlice S4096x1 ![0, 2] x0 slices_S4096x3_o0_2_S4096x1 (ix2 r 0) = x0 (ix2 r 2) :=
  Cert.Columns.column_apply x0 2 (by decide) slices_S4096x3_o0_2_S4096x1 r

/-- `w`: the scaled yaw. -/
theorem yaw_at : k0_pay2 x0 (ix2 r 0) = yaw (x0 (ix2 r 2)) := by
  show extractStridedSlice S4096x1 ![0, 2] x0 slices_S4096x3_o0_2_S4096x1 (ix2 r 0) * kScale = _
  rw [col2_at]; rfl

/-- `θ²`. -/
theorem angSq_at : k0_pay3 x0 (ix2 r 0) = angSq (x0 (ix2 r 2)) := by
  show k0_pay2 x0 (ix2 r 0) * k0_pay2 x0 (ix2 r 0) = _
  rw [yaw_at]; rfl

/-- `θ`. -/
theorem ang_at : k0_pay4 x0 (ix2 r 0) = ang (x0 (ix2 r 2)) := by
  show Ideal.sqrt (k0_pay3 x0 (ix2 r 0)) = _
  rw [angSq_at]; rfl

/-- `A`. -/
theorem coefA_at : k0_pay5 x0 (ix2 r 0) = coefA (x0 (ix2 r 2)) := by
  show Ideal.div (Ideal.sin (k0_pay4 x0 (ix2 r 0))) (k0_pay4 x0 (ix2 r 0) + kEps) = _
  rw [ang_at]; rfl

/-- `B`. -/
theorem coefB_at : k0_pay6 x0 (ix2 r 0) = coefB (x0 (ix2 r 2)) := by
  show Ideal.div (kOne - Ideal.cos (k0_pay4 x0 (ix2 r 0))) (k0_pay3 x0 (ix2 r 0) + kEps) = _
  rw [ang_at, angSq_at]; rfl

/-- `1 − θ²·B`. -/
theorem rotDiag_at : k0_pay7 x0 (ix2 r 0) = rotDiag (x0 (ix2 r 2)) := by
  show kOne - k0_pay3 x0 (ix2 r 0) * k0_pay6 x0 (ix2 r 0) = _
  rw [angSq_at, coefB_at]; rfl

/-- `(0 − w)·A`. -/
theorem rotOff_at : k0_pay8 x0 (ix2 r 0) = (0 - yaw (x0 (ix2 r 2))) * coefA (x0 (ix2 r 2)) := by
  show (Ideal.ofBits .f32 0x00000000#32 - k0_pay2 x0 (ix2 r 0)) * k0_pay5 x0 (ix2 r 0) = _
  rw [yaw_at, coefA_at, Ideal.ofBits_zero_f32]

/-- `0 − (0 − w)·A`. -/
theorem rotOffNeg_at : k0_pay9 x0 (ix2 r 0) = 0 - (0 - yaw (x0 (ix2 r 2))) * coefA (x0 (ix2 r 2)) := by
  show Ideal.ofBits .f32 0x00000000#32 - k0_pay8 x0 (ix2 r 0) = _
  rw [rotOff_at, Ideal.ofBits_zero_f32]

/-- `1 − θ²·C`. -/
theorem trDiag_at : k0_pay10 x0 (ix2 r 0) = trDiag (x0 (ix2 r 2)) := by
  show kOne - k0_pay3 x0 (ix2 r 0) * Ideal.div (kOne - k0_pay5 x0 (ix2 r 0)) (k0_pay3 x0 (ix2 r 0) + kEps) = _
  rw [angSq_at, coefA_at]; rfl

/-- `(0 − w)·B`. -/
theorem trOff_at : k0_pay11 x0 (ix2 r 0) = (0 - yaw (x0 (ix2 r 2))) * coefB (x0 (ix2 r 2)) := by
  show (Ideal.ofBits .f32 0x00000000#32 - k0_pay2 x0 (ix2 r 0)) * k0_pay6 x0 (ix2 r 0) = _
  rw [yaw_at, coefB_at, Ideal.ofBits_zero_f32]

/-- The scaled translation. -/
theorem transX_at : k0_pay12 x0 (ix2 r 0) = x0 (ix2 r 0) * kOne := by
  show extractStridedSlice S4096x1 ![0, 0] x0 slices_S4096x3_o0_0_S4096x1 (ix2 r 0) * kOne = _
  rw [col0_at]
theorem transY_at : k0_pay13 x0 (ix2 r 0) = x0 (ix2 r 1) * kOne := by
  show extractStridedSlice S4096x1 ![0, 1] x0 slices_S4096x3_o0_1_S4096x1 (ix2 r 0) * kOne = _
  rw [col1_at]

/-- The first translation entry. -/
theorem shiftX_at : k0_pay14 x0 (ix2 r 0)
    = trDiag (x0 (ix2 r 2)) * (x0 (ix2 r 0) * kOne) + ((0 - yaw (x0 (ix2 r 2))) * coefB (x0 (ix2 r 2))) * (x0 (ix2 r 1) * kOne) := by
  show k0_pay10 x0 (ix2 r 0) * k0_pay12 x0 (ix2 r 0) + k0_pay11 x0 (ix2 r 0) * k0_pay13 x0 (ix2 r 0) = _
  rw [trDiag_at, transX_at, trOff_at, transY_at]

/-- The sixteen columns the body joins, in its order, from the eight columns it carries out of its first part. -/
def cols (v25 v28 v30 v33 v36 v38 v40 v43 : FVec Ideal S4096x1 .f32) : Fin 16 → (S4096x1.Idx → EReal) :=
  ![v25, v28, broadcast S4096x1 (Ideal.ofBits .f32 0x00000000#32), v43,
    v30, v25, broadcast S4096x1 (Ideal.ofBits .f32 0x00000000#32),
      addf (mulf (subf (broadcast S4096x1 (Ideal.ofBits .f32 0x00000000#32)) v36) v38) (mulf v33 v40),
    broadcast S4096x1 (Ideal.ofBits .f32 0x00000000#32), broadcast S4096x1 (Ideal.ofBits .f32 0x00000000#32),
      broadcast S4096x1 kOne, broadcast S4096x1 (Ideal.ofBits .f32 0x00000000#32),
    broadcast S4096x1 (Ideal.ofBits .f32 0x00000000#32), broadcast S4096x1 (Ideal.ofBits .f32 0x00000000#32),
      broadcast S4096x1 (Ideal.ofBits .f32 0x00000000#32), broadcast S4096x1 kOne]

/-- The stored block at `(r, k)` is column `k` at row `r`. -/
theorem stored_cols (v25 v28 v30 v33 v36 v38 v40 v43 : FVec Ideal S4096x1 .f32) (k : Fin 16) :
    k0_pay1 v25 v28 v30 v33 v36 v38 v40 v43 (ix2 r k) = cols v25 v28 v30 v33 v36 v38 v40 v43 k (ix2 r 0) :=
  Cert.Columns.join16_apply (cols v25 v28 v30 v33 v36 v38 v40 v43)
    concatenates_S4096x1_S4096x1_S4096x1_S4096x1_S4096x1_S4096x1_S4096x1_S4096x1_S4096x1_S4096x1_S4096x1_S4096x1_S4096x1_S4096x1_S4096x1_S4096x1_S4096x16_d1 r k

/-- THE STORED BLOCK AT AN ENTRY: column `k` of the planar exponential of row `r` of the loaded block. -/
theorem stored_at (k : Fin 16) :
    k0_pay1 (k0_pay7 x0) (k0_pay8 x0) (k0_pay9 x0) (k0_pay10 x0) (k0_pay11 x0) (k0_pay12 x0) (k0_pay13 x0) (k0_pay14 x0) (ix2 r k)
      = flat (x0 (ix2 r 0)) (x0 (ix2 r 1)) (x0 (ix2 r 2)) k := by
  rw [stored_cols, ← flat_eq]
  have hty : (Ideal.ofBits .f32 0x00000000#32 - k0_pay11 x0 (ix2 r 0)) * k0_pay12 x0 (ix2 r 0)
        + k0_pay10 x0 (ix2 r 0) * k0_pay13 x0 (ix2 r 0)
      = (0 - (0 - yaw (x0 (ix2 r 2))) * coefB (x0 (ix2 r 2))) * (x0 (ix2 r 0) * kOne)
        + trDiag (x0 (ix2 r 2)) * (x0 (ix2 r 1) * kOne) := by
    rw [trOff_at, transX_at, trDiag_at, transY_at, Ideal.ofBits_zero_f32]
  fin_cases k
  · exact rotDiag_at x0 r
  · exact rotOff_at x0 r
  · exact Ideal.ofBits_zero_f32
  · exact shiftX_at x0 r
  · exact rotOffNeg_at x0 r
  · exact rotDiag_at x0 r
  · exact Ideal.ofBits_zero_f32
  · exact hty
  · exact Ideal.ofBits_zero_f32
  · exact Ideal.ofBits_zero_f32
  · rfl
  · exact Ideal.ofBits_zero_f32
  · exact Ideal.ofBits_zero_f32
  · exact Ideal.ofBits_zero_f32
  · exact Ideal.ofBits_zero_f32
  · rfl

end Cert.KernelIdeal.RowValue

end
-- ==== Proof.KernelArray.lean ====
/-
  The kernel's result array after the run.

  The grid has 1024 points; point `t` loads rows `4096 t … 4096 t + 4095` of the argument and writes back the same rows,
  sixteen columns wide, of the result. A stored entry depends on its own row of the loaded block only, so what point `t`
  writes back is block `t` of ONE whole-array function of the argument (`PlanarExp.wide`); the 1024 blocks tile the
  4194304 rows, so after the run the array is that function. The host then regroups each sixteen-wide row as a 4 × 4 matrix,
  which keeps every entry's row-major position: the program's result is `PlanarExp.mats` of the argument.
-/
import proofs.«115441_j66649302499845_1_alg».proof.Proof.Gen.KernelIdeal.Frame
import proofs.«115441_j66649302499845_1_alg».proof.Proof.KernelRow
import Idealize.ShloMosaic.Lib.Pipeline.Value
import Idealize.ShloMosaic.Lib.StableHlo.Run

set_option maxRecDepth 16384

noncomputable section

namespace Cert.KernelIdeal.ArrayValue

open Idealize.ShloMosaic Idealize.ShloMosaic.TcCoe Idealize.ShloMosaic.ValueIdx Idealize.SL.Sem
open Cert.KernelIdeal Cert.KernelIdeal.Gen Cert.PlanarExp
open Idealize.ShloMosaic.Pipeline (Dat Cfg Window)

variable (m : (ℓ : Loc nD τ sig) → Buf (Elt Ideal) ℓ) (ρ : Dev nD → PrngReg)

theorem zeroOff : (![0, 0] : Fin 2 → Nat) = fun _ => 0 := funext fun a => by fin_cases a <;> rfl

/-- Both windows' block index at point `t` is `(t, 0)`. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- WHAT POINT `t` WRITES BACK is block `t` of `wide` of the argument. -/
theorem flushed_eq (c : Dev nD) (t : Fin cfg0.N) :
    (dats m 0 c).flushed 1 t = ((cfg0.win 1).blk t).view.read (Elt Ideal) (wide (V m c main_arg0)) := by
  show (cfg0.win 1).cut (grid0.coords t) ((dats m 0 c).after 1 t) = _
  rw [after0_1]
  unfold out0_1
  rw [View.canon_unit_zero zeroOff]
  simp only [View.ld_unit_zero (S := S4096x3) zeroOff]
  obtain ⟨e0, e1, e2, e3⟩ := block_index t
  funext j
  obtain ⟨r, k, rfl⟩ : ∃ (r : Fin 4096) (k : Fin 16), j = ix2 r k := ⟨j 0, j 1, eq_ix2 j⟩
  have hN : grid0.N = 1024 := N_0
  have ht : t.val < 1024 := hN ▸ t.isLt
  have hrow : t.val * 4096 + r.val < 4194304 := by have := r.isLt; omega
  have hout : ((cfg0.win 1).blk t).view.emb (ix2 r k) = ix2 (⟨t.val * 4096 + r.val, hrow⟩ : Fin 4194304) k := by
    funext a; apply Fin.ext
    match a with
    | ⟨0, _⟩ => show win0_1.index t (0 : Fin 2) * 4096 + 1 * r.val = t.val * 4096 + r.val; omega
    | ⟨1, _⟩ => show win0_1.index t (1 : Fin 2) * 16 + 1 * k.val = k.val; omega
  have hin : ∀ o : Fin 3, ((cfg0.win 0).blk t).view.emb (ix2 r o) = ix2 (⟨t.val * 4096 + r.val, hrow⟩ : Fin 4194304) o := by
    intro o; funext a; apply Fin.ext
    match a with
    | ⟨0, _⟩ => show win0_0.index t (0 : Fin 2) * 4096 + 1 * r.val = t.val * 4096 + r.val; omega
    | ⟨1, _⟩ => show win0_0.index t (1 : Fin 2) * 3 + 1 * o.val = o.val; omega
  refine (Cert.KernelIdeal.RowValue.stored_at (iblk m c 0 t) r k).trans ?_
  show flat (V m c main_arg0 (((cfg0.win 0).blk t).view.emb (ix2 r 0))) (V m c main_arg0 (((cfg0.win 0).blk t).view.emb (ix2 r 1)))
      (V m c main_arg0 (((cfg0.win 0).blk t).view.emb (ix2 r 2))) k
    = wide (V m c main_arg0) (((cfg0.win 1).blk t).view.emb (ix2 r k))
  rw [hin 0, hin 1, hin 2, hout, wide_apply]

/-- An index of the result array is in point `t`'s block iff each coordinate is in the block's range on its axis. -/
theorem mem_blk (t : Fin cfg0.N) (i : S4194304x16.Idx) :
    i ∈ ((cfg0.win 1).blk t).view.set ↔ ∀ a : Fin 2, win0_1.index t a * S4096x16.size a ≤ (i a).val
      ∧ (i a).val < win0_1.index t a * S4096x16.size a + S4096x16.size a := by
  show i ∈ ((View.whole main_v0).slice (win0_1.rect t)).set ↔ _
  rw [View.set_slice_whole, Rect.mem_set_unit]
  exact Iff.rfl

/-- Every row of the result is in the block of the point `row / 4096`: the 1024 blocks tile the array. -/
theorem cover (i : S4194304x16.Idx) :
    ∃ t : Fin cfg0.N, (cfg0.win 1).flush t = true ∧ i ∈ ((cfg0.win 1).blk t).view.set := by
  have hi0 : (i 0).val < 4194304 := (i 0).isLt
  have hi1 : (i 1).val < 16 := (i 1).isLt
  have hN : grid0.N = 1024 := N_0
  have hq : (i 0).val / 4096 < grid0.N := by rw [hN]; omega
  obtain ⟨-, -, e2, e3⟩ := block_index (⟨(i 0).val / 4096, hq⟩ : Fin cfg0.N)
  refine ⟨⟨(i 0).val / 4096, hq⟩, flush0_1 _, ?_⟩
  rw [mem_blk]
  intro a
  match a with
  | ⟨0, _⟩ =>
    show win0_1.index ⟨(i 0).val / 4096, hq⟩ (0 : Fin 2) * 4096 ≤ (i 0).val
      ∧ (i 0).val < win0_1.index ⟨(i 0).val / 4096, hq⟩ (0 : Fin 2) * 4096 + 4096
    rw [e2]; show (i 0).val / 4096 * 4096 ≤ (i 0).val ∧ (i 0).val < (i 0).val / 4096 * 4096 + 4096; omega
  | ⟨1, _⟩ =>
    show win0_1.index ⟨(i 0).val / 4096, hq⟩ (1 : Fin 2) * 16 ≤ (i 1).val
      ∧ (i 1).val < win0_1.index ⟨(i 0).val / 4096, hq⟩ (1 : Fin 2) * 16 + 16
    rw [e3]; omega

/-- THE RESULT ARRAY after the region: `wide` of the argument. -/
theorem final (c : Dev nD) : (dats m 0 c).arrAt 1 cfg0.N = wide (m ((c : Thread nD τ).loc main_arg0)) :=
  ((dats m 0 c).arrAt_eq_of_cover 1 (wide (V m c main_arg0)) (fun t _ => flushed_eq m c t) cover).trans
    (by rw [V_main_arg0])

/-- The sixteen-wide array regrouped row by row is the array of matrices. -/
theorem regroup_wide (uv : S4194304x3.Idx → EReal) :
    shapeCast S4194304x4x4 (wide uv) shapeCasts_S4194304x16_S4194304x4x4 = mats uv := by
  funext q
  obtain ⟨b, i, j, rfl⟩ : ∃ (b : Fin 4194304) (i : Fin 4) (j : Fin 4), q = ix3 b i j := ⟨q 0, q 1, q 2, eq_ix3 q⟩
  have hk : 4 * i.val + j.val < 16 := by have := i.isLt; have := j.isLt; omega
  rw [Cert.Columns.regroup_apply (wide uv) shapeCasts_S4194304x16_S4194304x4x4 b i j ⟨4 * i.val + j.val, hk⟩ rfl,
    wide_apply, mats_apply]
  exact flat_entry _ _ _ i j _ rfl

/-- THE PROGRAM'S RESULT: after the host's regrouping, the array of matrices of the argument. -/
theorem result_eq (c : Dev nD) :
    Pipeline.afterTail₀ cfgs (dats m) 0 (V0 m) [hostOps1] c main_v1 = mats (m ((c : Thread nD τ).loc main_arg0)) := by
  unfold Pipeline.afterTail₀
  show StableHlo.after hostOps1 _ (Proc.devRef .tc main_v1) = _
  after_results
  have hw : Pipeline.withArrays (cfgs 0).spec c (V0 m c) (fun w => (dats m 0 c).arrAt w (cfgs 0).N) (Proc.devRef .tc main_v0)
      = wide (m ((c : Thread nD τ).loc main_arg0)) :=
    (Pipeline.withArrays_arr spec0 launch0.win.arr_inj c _ _ 1).trans (final m c)
  rw [hw]
  exact regroup_wide _

/-- The result buffer is no array of the pipeline: the region leaves it alone and the host line after it writes it. -/
theorem result_rest : main_v1 ∈ Pipeline.restRefs sig (cfgs 0).spec :=
  Pipeline.mem_restRefs_of main_v1 (by decide) (by decide)

/-- THE RUN, READ: every weakly fair execution ends with the result at `mats` of the argument, the argument unchanged. -/
theorem run : θ_run defs (onTc (τ := τ) (main (F := Ideal))) ⟨m, fun _ => 0, ρ⟩ fun r => ∀ c : Dev nD,
    r.2.mem ((c.tc : Thread nD τ).loc main_v1) = mats (m ((c.tc : Thread nD τ).loc main_arg0))
    ∧ r.2.mem ((c.tc : Thread nD τ).loc main_arg0) = m ((c.tc : Thread nD τ).loc main_arg0) :=
  (θ_run defs _ _).mono (fun r h c => ⟨((h c).2 main_v1 result_rest).trans (result_eq m c),
      ((h c).1 0).trans (((dats m 0 c).arrAt_in 0 rfl _).trans ((A_eq m c 0).trans (V_main_arg0 m c)))⟩)
    (run_main m ρ)

end Cert.KernelIdeal.ArrayValue

end
-- ==== Proof.ReferenceRows.lean ====
/-
  What the reference computes, read at one entry.

  The reference slices the three columns of the 4194304 × 3 argument into long vectors, computes on them with pointwise
  operations only, stands each result up as a column, joins four columns into each of the four rows of the matrix, gives
  each row a unit middle axis and stacks the four. So entry `(b, i, j)` of its result depends on row `b` of the argument
  alone: it is entry `(i, j)` of the planar exponential (`PlanarExp.entry`) at `x = row b's first entry`, `y` its second,
  `z` its third. Each stage is read at `b` in the program's order; the host's square root, sine, cosine, quotient and
  negation are, on the extended reals, the functions the matrix is written with.
-/
import proofs.«115441_j66649302499845_1_alg».proof.Proof.Gen.ReferenceIdeal.Read
import proofs.«115441_j66649302499845_1_alg».proof.Proof.PlanarExp
import proofs.«115441_j66649302499845_1_alg».proof.Proof.Columns
import Idealize.ShloMosaic.Lib.ValueIdx
import Idealize.ShloMosaic.PureOps.Ideal.Laws

noncomputable section

namespace Cert.ReferenceIdeal.RowValue

open Idealize.ShloMosaic Idealize.ShloMosaic.ValueIdx Cert.ReferenceIdeal Cert.ReferenceIdeal.Gen Cert.ReferenceIdeal.Read
open Cert.PlanarExp

variable (x0 : (⟨S4194304x3, .f32⟩ : BufTy).Contents (Elt Ideal)) (b : Fin 4194304)

/-- The three columns of the argument at row `b`. -/
theorem yawIn_at : val_main_v1 (F := Ideal) x0 (ix1 b) = x0 (ix2 b 2) :=
  Cert.Columns.longColumn_apply x0 2 (by decide) slices_S4194304x3_S4194304x1_0_2 shapeCasts_S4194304x1_S4194304 b
theorem xIn_at : val_main_v5 (F := Ideal) x0 (ix1 b) = x0 (ix2 b 0) :=
  Cert.Columns.longColumn_apply x0 0 (by decide) slices_S4194304x3_S4194304x1_0_0 shapeCasts_S4194304x1_S4194304 b
theorem yIn_at : val_main_v9 (F := Ideal) x0 (ix1 b) = x0 (ix2 b 1) :=
  Cert.Columns.longColumn_apply x0 1 (by decide) slices_S4194304x3_S4194304x1_0_1 shapeCasts_S4194304x1_S4194304 b

/-- `w`. -/
theorem yaw_at : val_main_v3 (F := Ideal) x0 (ix1 b) = yaw (x0 (ix2 b 2)) := by
  show val_main_v1 (F := Ideal) x0 (ix1 b) * kScale = _
  rw [yawIn_at]; rfl

/-- The scaled translation. -/
theorem transX_at : val_main_v7 (F := Ideal) x0 (ix1 b) = x0 (ix2 b 0) * kOne := by
  show val_main_v5 (F := Ideal) x0 (ix1 b) * kOne = _
  rw [xIn_at]
theorem transY_at : val_main_v11 (F := Ideal) x0 (ix1 b) = x0 (ix2 b 1) * kOne := by
  show val_main_v9 (F := Ideal) x0 (ix1 b) * kOne = _
  rw [yIn_at]

/-- `θ²`, `θ`. -/
theorem angSq_at : val_main_v12 (F := Ideal) x0 (ix1 b) = angSq (x0 (ix2 b 2)) := by
  show val_main_v3 (F := Ideal) x0 (ix1 b) * val_main_v3 (F := Ideal) x0 (ix1 b) = _
  rw [yaw_at]; rfl
theorem ang_at : val_main_v13 (F := Ideal) x0 (ix1 b) = ang (x0 (ix2 b 2)) := by
  show Ideal.sqrt (val_main_v12 (F := Ideal) x0 (ix1 b)) = _
  rw [angSq_at]; rfl

/-- `A`, `B`, `C`. -/
theorem coefA_at : val_main_v17 (F := Ideal) x0 (ix1 b) = coefA (x0 (ix2 b 2)) := by
  show Ideal.div (Ideal.sin (val_main_v13 (F := Ideal) x0 (ix1 b))) (val_main_v13 (F := Ideal) x0 (ix1 b) + kEps) = _
  rw [ang_at]; rfl
theorem coefB_at : val_main_v23 (F := Ideal) x0 (ix1 b) = coefB (x0 (ix2 b 2)) := by
  show Ideal.div (kOne - Ideal.cos (val_main_v13 (F := Ideal) x0 (ix1 b))) (val_main_v12 (F := Ideal) x0 (ix1 b) + kEps) = _
  rw [ang_at, angSq_at]; rfl
theorem coefC_at : val_main_v28 (F := Ideal) x0 (ix1 b) = coefC (x0 (ix2 b 2)) := by
  show Ideal.div (kOne - val_main_v17 (F := Ideal) x0 (ix1 b)) (val_main_v12 (F := Ideal) x0 (ix1 b) + kEps) = _
  rw [coefA_at, angSq_at]; rfl

/-- The rotation block. -/
theorem rotDiag_at : val_main_v31 (F := Ideal) x0 (ix1 b) = rotDiag (x0 (ix2 b 2)) := by
  show kOne - val_main_v12 (F := Ideal) x0 (ix1 b) * val_main_v23 (F := Ideal) x0 (ix1 b) = _
  rw [angSq_at, coefB_at]; rfl
theorem rotOff_at : val_main_v33 (F := Ideal) x0 (ix1 b) = -(yaw (x0 (ix2 b 2))) * coefA (x0 (ix2 b 2)) := by
  show -(val_main_v3 (F := Ideal) x0 (ix1 b)) * val_main_v17 (F := Ideal) x0 (ix1 b) = _
  rw [yaw_at, coefA_at]
theorem rotOffNeg_at : val_main_v34 (F := Ideal) x0 (ix1 b) = yaw (x0 (ix2 b 2)) * coefA (x0 (ix2 b 2)) := by
  show val_main_v3 (F := Ideal) x0 (ix1 b) * val_main_v17 (F := Ideal) x0 (ix1 b) = _
  rw [yaw_at, coefA_at]

/-- The translation's matrix. -/
theorem trDiag_at : val_main_v37 (F := Ideal) x0 (ix1 b) = trDiag (x0 (ix2 b 2)) := by
  show kOne - val_main_v12 (F := Ideal) x0 (ix1 b) * val_main_v28 (F := Ideal) x0 (ix1 b) = _
  rw [angSq_at, coefC_at]; rfl
theorem trOff_at : val_main_v39 (F := Ideal) x0 (ix1 b) = -(yaw (x0 (ix2 b 2))) * coefB (x0 (ix2 b 2)) := by
  show -(val_main_v3 (F := Ideal) x0 (ix1 b)) * val_main_v23 (F := Ideal) x0 (ix1 b) = _
  rw [yaw_at, coefB_at]
theorem trOffNeg_at : val_main_v40 (F := Ideal) x0 (ix1 b) = yaw (x0 (ix2 b 2)) * coefB (x0 (ix2 b 2)) := by
  show val_main_v3 (F := Ideal) x0 (ix1 b) * val_main_v23 (F := Ideal) x0 (ix1 b) = _
  rw [yaw_at, coefB_at]

/-- The translation column. -/
theorem shiftX_at : val_main_v43 (F := Ideal) x0 (ix1 b) = shiftX (x0 (ix2 b 0)) (x0 (ix2 b 1)) (x0 (ix2 b 2)) := by
  show val_main_v37 (F := Ideal) x0 (ix1 b) * val_main_v7 (F := Ideal) x0 (ix1 b)
    + val_main_v39 (F := Ideal) x0 (ix1 b) * val_main_v11 (F := Ideal) x0 (ix1 b) = _
  rw [trDiag_at, transX_at, trOff_at, transY_at]; rfl
theorem shiftY_at : val_main_v46 (F := Ideal) x0 (ix1 b) = shiftY (x0 (ix2 b 0)) (x0 (ix2 b 1)) (x0 (ix2 b 2)) := by
  show val_main_v40 (F := Ideal) x0 (ix1 b) * val_main_v7 (F := Ideal) x0 (ix1 b)
    + val_main_v37 (F := Ideal) x0 (ix1 b) * val_main_v11 (F := Ideal) x0 (ix1 b) = _
  rw [trOffNeg_at, transX_at, trDiag_at, transY_at]; rfl

/-- The zero and one vectors. -/
theorem zero_at : val_main_v47 (F := Ideal) (ix1 b) = 0 := Ideal.ofBits_zero_f32
theorem one_at : val_main_v48 (F := Ideal) (ix1 b) = kOne := rfl

/-- Each of the four rows, joined from its four columns, read at `(b, j)`. -/
theorem row0_at (j : Fin 4) : val_main_v53 (F := Ideal) x0 (ix2 b j)
    = entry (x0 (ix2 b 0)) (x0 (ix2 b 1)) (x0 (ix2 b 2)) 0 j := by
  refine (Cert.Columns.join4_apply
    ![val_main_v49 (F := Ideal) x0, val_main_v50 (F := Ideal) x0, val_main_v51 (F := Ideal), val_main_v52 (F := Ideal) x0]
    concatenates_S4194304x1_S4194304x1_S4194304x1_S4194304x1_S4194304x4_d1 b j).trans ?_
  fin_cases j
  · exact (Cert.Columns.asColumn_apply _ bcast_S4194304_S4194304x1_0 b).trans (rotDiag_at x0 b)
  · exact (Cert.Columns.asColumn_apply _ bcast_S4194304_S4194304x1_0 b).trans (rotOff_at x0 b)
  · exact (Cert.Columns.asColumn_apply _ bcast_S4194304_S4194304x1_0 b).trans (zero_at b)
  · exact (Cert.Columns.asColumn_apply _ bcast_S4194304_S4194304x1_0 b).trans (shiftX_at x0 b)

theorem row1_at (j : Fin 4) : val_main_v58 (F := Ideal) x0 (ix2 b j)
    = entry (x0 (ix2 b 0)) (x0 (ix2 b 1)) (x0 (ix2 b 2)) 1 j := by
  refine (Cert.Columns.join4_apply
    ![val_main_v54 (F := Ideal) x0, val_main_v55 (F := Ideal) x0, val_main_v56 (F := Ideal), val_main_v57 (F := Ideal) x0]
    concatenates_S4194304x1_S4194304x1_S4194304x1_S4194304x1_S4194304x4_d1 b j).trans ?_
  fin_cases j
  · exact (Cert.Columns.asColumn_apply _ bcast_S4194304_S4194304x1_0 b).trans (rotOffNeg_at x0 b)
  · exact (Cert.Columns.asColumn_apply _ bcast_S4194304_S4194304x1_0 b).trans (rotDiag_at x0 b)
  · exact (Cert.Columns.asColumn_apply _ bcast_S4194304_S4194304x1_0 b).trans (zero_at b)
  · exact (Cert.Columns.asColumn_apply _ bcast_S4194304_S4194304x1_0 b).trans (shiftY_at x0 b)

theorem row2_at (j : Fin 4) : val_main_v63 (F := Ideal) (ix2 b j)
    = entry (x0 (ix2 b 0)) (x0 (ix2 b 1)) (x0 (ix2 b 2)) 2 j := by
  refine (Cert.Columns.join4_apply
    ![val_main_v59 (F := Ideal), val_main_v60 (F := Ideal), val_main_v61 (F := Ideal), val_main_v62 (F := Ideal)]
    concatenates_S4194304x1_S4194304x1_S4194304x1_S4194304x1_S4194304x4_d1 b j).trans ?_
  fin_cases j
  · exact (Cert.Columns.asColumn_apply _ bcast_S4194304_S4194304x1_0 b).trans (zero_at b)
  · exact (Cert.Columns.asColumn_apply _ bcast_S4194304_S4194304x1_0 b).trans (zero_at b)
  · exact (Cert.Columns.asColumn_apply _ bcast_S4194304_S4194304x1_0 b).trans (one_at b)
  · exact (Cert.Columns.asColumn_apply _ bcast_S4194304_S4194304x1_0 b).trans (zero_at b)

theorem row3_at (j : Fin 4) : val_main_v68 (F := Ideal) (ix2 b j)
    = entry (x0 (ix2 b 0)) (x0 (ix2 b 1)) (x0 (ix2 b 2)) 3 j := by
  refine (Cert.Columns.join4_apply
    ![val_main_v64 (F := Ideal), val_main_v65 (F := Ideal), val_main_v66 (F := Ideal), val_main_v67 (F := Ideal)]
    concatenates_S4194304x1_S4194304x1_S4194304x1_S4194304x1_S4194304x4_d1 b j).trans ?_
  fin_cases j
  · exact (Cert.Columns.asColumn_apply _ bcast_S4194304_S4194304x1_0 b).trans (zero_at b)
  · exact (Cert.Columns.asColumn_apply _ bcast_S4194304_S4194304x1_0 b).trans (zero_at b)
  · exact (Cert.Columns.asColumn_apply _ bcast_S4194304_S4194304x1_0 b).trans (zero_at b)
  · exact (Cert.Columns.asColumn_apply _ bcast_S4194304_S4194304x1_0 b).trans (one_at b)

/-- THE REFERENCE'S RESULT AT AN ENTRY: entry `(i, j)` of the planar exponential of row `b` of the argument. -/
theorem result_at (i j : Fin 4) : val_main_v73 (F := Ideal) x0 (ix3 b i j)
    = entry (x0 (ix2 b 0)) (x0 (ix2 b 1)) (x0 (ix2 b 2)) i j := by
  refine (Cert.Columns.stack4_apply
    ![val_main_v69 (F := Ideal) x0, val_main_v70 (F := Ideal) x0, val_main_v71 (F := Ideal), val_main_v72 (F := Ideal)]
    concatenates_S4194304x1x4_S4194304x1x4_S4194304x1x4_S4194304x1x4_S4194304x4x4_d1 b i j).trans ?_
  fin_cases i
  · exact (Cert.Columns.asSlab_apply _ bcast_S4194304x4_S4194304x1x4_0_2 b j).trans (row0_at x0 b j)
  · exact (Cert.Columns.asSlab_apply _ bcast_S4194304x4_S4194304x1x4_0_2 b j).trans (row1_at x0 b j)
  · exact (Cert.Columns.asSlab_apply _ bcast_S4194304x4_S4194304x1x4_0_2 b j).trans (row2_at x0 b j)
  · exact (Cert.Columns.asSlab_apply _ bcast_S4194304x4_S4194304x1x4_0_2 b j).trans (row3_at x0 b j)

end Cert.ReferenceIdeal.RowValue

end
-- ==== Proof.ReferenceArray.lean ====
/-
  The reference's result array.

  Every entry of the reference's result is the matching entry of the planar exponential of its own row of the argument
  (`RowValue.result_at`), so the whole result is `PlanarExp.mats` of the argument; its run ends there, the argument unchanged.
-/
import proofs.«115441_j66649302499845_1_alg».proof.Proof.ReferenceRows

noncomputable section

namespace Cert.ReferenceIdeal.ArrayValue

open Idealize.ShloMosaic Idealize.ShloMosaic.TcCoe Idealize.ShloMosaic.ValueIdx Idealize.SL.Sem
open Cert.ReferenceIdeal Cert.ReferenceIdeal.Gen Cert.ReferenceIdeal.Read Cert.PlanarExp

/-- The last stage is the array of matrices. -/
theorem result_eq (x0 : (⟨S4194304x3, .f32⟩ : BufTy).Contents (Elt Ideal)) : val_main_v73 (F := Ideal) x0 = mats x0 := by
  funext q
  obtain ⟨b, i, j, rfl⟩ : ∃ (b : Fin 4194304) (i : Fin 4) (j : Fin 4), q = ix3 b i j := ⟨q 0, q 1, q 2, eq_ix3 q⟩
  rw [mats_apply]
  exact Cert.ReferenceIdeal.RowValue.result_at x0 b i j

variable (m : (ℓ : Loc nD τ sig) → Buf (Elt Ideal) ℓ) (ρ : Dev nD → PrngReg)

/-- THE RUN, READ: every weakly fair execution ends with the result at `mats` of the argument, the argument unchanged. -/
theorem run : θ_run defs (onTc (τ := τ) (main (F := Ideal))) ⟨m, fun _ => 0, ρ⟩ fun r => ∀ c : Dev nD,
    r.2.mem ((c.tc : Thread nD τ).loc main_v73) = mats (m ((c.tc : Thread nD τ).loc main_arg0))
    ∧ r.2.mem ((c.tc : Thread nD τ).loc main_arg0) = m ((c.tc : Thread nD τ).loc main_arg0) :=
  (θ_run defs _ _).mono (fun r h c => ⟨((h c).1.trans (val_main_v73_eq m c)).trans (result_eq _), (h c).2⟩)
    (Cert.ReferenceIdeal.Value.run (F := Ideal) m ρ)

end Cert.ReferenceIdeal.ArrayValue

end
-- ==== Proof.lean ====
/-
  The certificate: the planar rigid-motion exponential, 4194304 rows at once.

  The argument is a 4194304 × 3 array; row `b` holds a translation `(x, y)` and a yaw `z`. Both programs send each row to
  the 4 × 4 matrix `PlanarExp.entry x y z` (a rotation block built from `w = z·s`, `θ = √(w·w)` and the coefficients
  `sin θ / (θ + ε)`, `(1 − cos θ) / (θ² + ε)`, `(1 − A) / (θ² + ε)`; a translation column; two constant rows), so the result
  is the array `PlanarExp.mats` of the argument.

  The kernel works on 1024 blocks of 4096 rows. From a loaded block it slices the three columns, computes sixteen result
  columns pointwise, joins them and stores the 4096 × 16 block; an entry of the stored block depends on its own row alone
  (`KernelRow`), so the blocks are restrictions of one whole-array function and tile the result (`KernelArray`), which the
  host then regroups row by row into matrices. The reference computes the same columns over the whole array on the host
  and stacks them (`ReferenceRows`, `ReferenceArray`). The two differ in how they negate: the kernel writes `0 − a`, and
  takes `w·A`, `w·B` as `0 − ((0 − w)·A)`, `0 − ((0 − w)·B)`; on the extended reals these are the reference's `−w`, `w·A`,
  `w·B` by `0 − a = −a`, `(−a)·b = −(a·b)`, `−−a = a`, which hold at the infinities too, so the inputs' finiteness is
  never used. Square root, sine, cosine and the quotient are the same functions on both sides, and the scale, `ε` and
  `1` the same float words.

  The kernel's two frames are the generated ones; the reference's frame is its generated run with the result dropped;
  no operation was rewritten by the idealization, so `preserves` has nothing to state.
-/
import proofs.«115441_j66649302499845_1_alg».proof.Defs
import proofs.«115441_j66649302499845_1_alg».proof.Proof.Gen.Kernel
import proofs.«115441_j66649302499845_1_alg».proof.Proof.Gen.Kernel.Skeleton
import proofs.«115441_j66649302499845_1_alg».proof.Proof.Gen.Kernel.Launch
import proofs.«115441_j66649302499845_1_alg».proof.Proof.Gen.Kernel.Points
import proofs.«115441_j66649302499845_1_alg».proof.Proof.Gen.Kernel.Frame
import proofs.«115441_j66649302499845_1_alg».proof.Proof.Gen.KernelIdeal
import proofs.«115441_j66649302499845_1_alg».proof.Proof.Gen.KernelIdeal.Skeleton
import proofs.«115441_j66649302499845_1_alg».proof.Proof.Gen.KernelIdeal.Launch
import proofs.«115441_j66649302499845_1_alg».proof.Proof.Gen.KernelIdeal.Points
import proofs.«115441_j66649302499845_1_alg».proof.Proof.Gen.KernelIdeal.Frame
import proofs.«115441_j66649302499845_1_alg».proof.Proof.Gen.ReferenceIdeal
import proofs.«115441_j66649302499845_1_alg».proof.Proof.Gen.ReferenceIdeal.Run
import proofs.«115441_j66649302499845_1_alg».proof.Proof.Gen.ReferenceIdeal.Read
import proofs.«115441_j66649302499845_1_alg».proof.Proof.Gen.Pre_finite_inputs
import proofs.«115441_j66649302499845_1_alg».proof.Proof.KernelArray
import proofs.«115441_j66649302499845_1_alg».proof.Proof.ReferenceArray
import Idealize.ShloMosaic.Adequacy
import Idealize.ShloMosaic.Init

noncomputable section

namespace Cert.Proof

open Idealize.ShloMosaic Idealize.ShloMosaic.TcCoe Idealize.SL.Sem

/-- The word-level kernel runs and keeps its argument. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and keeps its argument: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the argument both programs end with the array of matrices of that argument. -/
theorem algebraic : Cert.algebraic_KernelIdeal_ReferenceIdeal := by
  intro m ρ m' ρ' _ hagree
  refine ⟨fun c => Cert.PlanarExp.mats (m ((c.tc : Thread Cert.KernelIdeal.nD Cert.KernelIdeal.τ).loc Cert.KernelIdeal.main_arg0)),
    Cert.KernelIdeal.ArrayValue.run m ρ, ?_⟩
  refine (θ_run Cert.ReferenceIdeal.defs _ _).mono (fun _ h c => ⟨(h c).1.trans ?_, (h c).2⟩)
    (Cert.ReferenceIdeal.ArrayValue.run m' ρ')
  rw [hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
